-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S150000 : Shape := ⟨1, ![150000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S150000 : S_.BroadcastsInDim S150000 (![] : Fin 0 → Fin S150000.rank)
  reducesTo_S150000_S_d0 : S150000.ReducesTo [0] S_

variable [Facts]

def fn_part2 {F : FTy → Type} [FloatOps F] (main_arg7 : IVec S150000 32) (main_arg8 : IVec S150000 32) (main_v28 : IVec S_ 1) (main_v33 : IVec S150000 1) : IVec S_ 1 :=
  let main_c_12 : IVec S_ 1 := constantI S_ 1 1#1
  let main_v34 : IVec S_ 1 := (fun x v => Host.reduce IntOp.andi x v reducesTo_S150000_S_d0 h_S_) main_v33 main_c_12
  let main_v35 : IVec S_ 1 := andi main_v28 main_v34
  let main_c_13 : IVec S_ 32 := constantI S_ 32 4294867296#32
  let main_v36 : IVec S150000 32 := broadcastInDim S150000 ![] bcast_S_S150000 main_c_13
  let main_v37 : IVec S150000 1 := cmpi .sge main_arg7 main_v36
  let main_c_14 : IVec S_ 32 := constantI S_ 32 100000#32
  let main_v38 : IVec S150000 32 := broadcastInDim S150000 ![] bcast_S_S150000 main_c_14
  let main_v39 : IVec S150000 1 := cmpi .slt main_arg7 main_v38
  let main_v40 : IVec S150000 1 := andi main_v37 main_v39
  let main_c_15 : IVec S_ 1 := constantI S_ 1 1#1
  let main_v41 : IVec S_ 1 := (fun x v => Host.reduce IntOp.andi x v reducesTo_S150000_S_d0 h_S_) main_v40 main_c_15
  let main_v42 : IVec S_ 1 := andi main_v35 main_v41
  let main_c_16 : IVec S_ 32 := constantI S_ 32 4294867296#32
  let main_v43 : IVec S150000 32 := broadcastInDim S150000 ![] bcast_S_S150000 main_c_16
  let main_v44 : IVec S150000 1 := cmpi .sge main_arg8 main_v43
  let main_c_17 : IVec S_ 32 := constantI S_ 32 100000#32
  let main_v45 : IVec S150000 32 := broadcastInDim S150000 ![] bcast_S_S150000 main_c_17
  let main_v46 : IVec S150000 1 := cmpi .slt main_arg8 main_v45
  let main_v47 : IVec S150000 1 := andi main_v44 main_v46
  let main_c_18 : IVec S_ 1 := constantI S_ 1 1#1
  let main_v48 : IVec S_ 1 := (fun x v => Host.reduce IntOp.andi x v reducesTo_S150000_S_d0 h_S_) main_v47 main_c_18
  let main_v49 : IVec S_ 1 := andi main_v42 main_v48
  main_v49

def fn_part1 {F : FTy → Type} [FloatOps F] (main_arg4 : FVec F S256x256 .f32) (main_arg5 : FVec F S256 .f32) (main_arg6 : IVec S150000 32) (main_arg7 : IVec S150000 32) (main_arg8 : IVec S150000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 4294917296#32
  let main_v29 : IVec S150000 32 := broadcastInDim S150000 ![] bcast_S_S150000 main_c_10
  let main_v30 : IVec S150000 1 := cmpi .sge main_arg6 main_v29
  let main_c_11 : IVec S_ 32 := constantI S_ 32 50000#32
  let main_v31 : IVec S150000 32 := broadcastInDim S150000 ![] bcast_S_S150000 main_c_11
  let main_v32 : IVec S150000 1 := cmpi .slt main_arg6 main_v31
  let main_v33 : IVec S150000 1 := andi main_v30 main_v32
  fn_part2 (F := F) main_arg7 main_arg8 main_v28 main_v33

def fn {F : FTy → Type} [FloatOps F] (main_arg0 : FVec F S100000x256 .f32) (main_arg1 : FVec F S50000x256 .f32) (main_arg2 : FVec F S256x256 .f32) (main_arg3 : FVec F S256 .f32) (main_arg4 : FVec F S256x256 .f32) (main_arg5 : FVec F S256 .f32) (main_arg6 : IVec S150000 32) (main_arg7 : IVec S150000 32) (main_arg8 : IVec S150000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S150000 : Shape := ⟨1, ![150000]⟩
abbrev S_ : Shape := ⟨0, ![]⟩
abbrev S150000x1 : Shape := ⟨2, ![150000, 1]⟩
abbrev S1 : Shape := ⟨1, ![1]⟩
abbrev S1x1 : Shape := ⟨2, ![1, 1]⟩
abbrev S150000x256 : Shape := ⟨2, ![150000, 256]⟩
abbrev S3000x256 : Shape := ⟨2, ![3000, 256]⟩
abbrev S1x256 : Shape := ⟨2, ![1, 256]⟩

abbrev nBuf : Space → Nat
  | .hbm => 81
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S150000, .i32⟩
  | .hbm, ⟨7, _⟩ => ⟨S150000, .i32⟩
  | .hbm, ⟨8, _⟩ => ⟨S150000, .i32⟩
  | .hbm, ⟨9, _⟩ => ⟨S_, .i32⟩
  | .hbm, ⟨10, _⟩ => ⟨S150000, .i32⟩
  | .hbm, ⟨11, _⟩ => ⟨S150000, .i1⟩
  | .hbm, ⟨12, _⟩ => ⟨S_, .i32⟩
  | .hbm, ⟨13, _⟩ => ⟨S150000, .i32⟩
  | .hbm, ⟨14, _⟩ => ⟨S150000, .i32⟩
  | .hbm, ⟨15, _⟩ => ⟨S150000, .i32⟩
  | .hbm, ⟨16, _⟩ => ⟨S150000x1, .i32⟩
  | .hbm, ⟨17, _⟩ => ⟨S1, .i32⟩
  | .hbm, ⟨18, _⟩ => ⟨S_, .i32⟩
  | .hbm, ⟨19, _⟩ => ⟨S150000x1, .i32⟩
  | .hbm, ⟨20, _⟩ => ⟨S150000x1, .i1⟩
  | .hbm, ⟨21, _⟩ => ⟨S1x1, .i32⟩
  | .hbm, ⟨22, _⟩ => ⟨S150000x1, .i32⟩
  | .hbm, ⟨23, _⟩ => ⟨S150000x1, .i1⟩
  | .hbm, ⟨24, _⟩ => ⟨S150000x1, .i1⟩
  | .hbm, ⟨25, _⟩ => ⟨S_, .i1⟩
  | .hbm, ⟨26, _⟩ => ⟨S150000, .i1⟩
  | .hbm, ⟨27, _⟩ => ⟨S150000x256, .f32⟩
  | .hbm, ⟨28, _⟩ => ⟨S150000x256, .i1⟩
  | .hbm, ⟨29, _⟩ => ⟨S_, .f32⟩
  | .hbm, ⟨30, _⟩ => ⟨S150000x256, .f32⟩
  | .hbm, ⟨31, _⟩ => ⟨S150000x256, .f32⟩
  | .hbm, ⟨32, _⟩ => ⟨S_, .i32⟩
  | .hbm, ⟨33, _⟩ => ⟨S150000, .i32⟩
  | .hbm, ⟨34, _⟩ => ⟨S150000, .i1⟩
  | .hbm, ⟨35, _⟩ => ⟨S_, .i32⟩
  | .hbm, ⟨36, _⟩ => ⟨S150000, .i32⟩
  | .hbm, ⟨37, _⟩ => ⟨S150000, .i32⟩
  | .hbm, ⟨38, _⟩ => ⟨S150000, .i32⟩
  | .hbm, ⟨39, _⟩ => ⟨S150000x1, .i32⟩
  | .hbm, ⟨40, _⟩ => ⟨S1, .i32⟩
  | .hbm, ⟨41, _⟩ => ⟨S_, .i32⟩
  | .hbm, ⟨42, _⟩ => ⟨S150000x1, .i32⟩
  | .hbm, ⟨43, _⟩ => ⟨S150000x1, .i1⟩
  | .hbm, ⟨44, _⟩ => ⟨S1x1, .i32⟩
  | .hbm, ⟨45, _⟩ => ⟨S150000x1, .i32⟩
  | .hbm, ⟨46, _⟩ => ⟨S150000x1, .i1⟩
  | .hbm, ⟨47, _⟩ => ⟨S150000x1, .i1⟩
  | .hbm, ⟨48, _⟩ => ⟨S_, .i1⟩
  | .hbm, ⟨49, _⟩ => ⟨S150000, .i1⟩
  | .hbm, ⟨50, _⟩ => ⟨S150000x256, .f32⟩
  | .hbm, ⟨51, _⟩ => ⟨S150000x256, .i1⟩
  | .hbm, ⟨52, _⟩ => ⟨S_, .f32⟩
  | .hbm, ⟨53, _⟩ => ⟨S150000x256, .f32⟩
  | .hbm, ⟨54, _⟩ => ⟨S150000x256, .f32⟩
  | .hbm, ⟨55, _⟩ => ⟨S_, .i32⟩
  | .hbm, ⟨56, _⟩ => ⟨S150000, .i32⟩
  | .hbm, ⟨57, _⟩ => ⟨S150000, .i1⟩
  | .hbm, ⟨58, _⟩ => ⟨S_, .i32⟩
  | .hbm, ⟨59, _⟩ => ⟨S150000, .i32⟩
  | .hbm, ⟨60, _⟩ => ⟨S150000, .i32⟩
  | .hbm, ⟨61, _⟩ => ⟨S150000, .i32⟩
  | .hbm, ⟨62, _⟩ => ⟨S150000x1, .i32⟩
  | .hbm, ⟨63, _⟩ => ⟨S1, .i32⟩
  | .hbm, ⟨64, _⟩ => ⟨S_, .i32⟩
  | .hbm, ⟨65, _⟩ => ⟨S150000x1, .i32⟩
  | .hbm, ⟨66, _⟩ => ⟨S150000x1, .i1⟩
  | .hbm, ⟨67, _⟩ => ⟨S1x1, .i32⟩
  | .hbm, ⟨68, _⟩ => ⟨S150000x1, .i32⟩
  | .hbm, ⟨69, _⟩ => ⟨S150000x1, .i1⟩
  | .hbm, ⟨70, _⟩ => ⟨S150000x1, .i1⟩
  | .hbm, ⟨71, _⟩ => ⟨S_, .i1⟩
  | .hbm, ⟨72, _⟩ => ⟨S150000, .i1⟩
  | .hbm, ⟨73, _⟩ => ⟨S150000x256, .f32⟩
  | .hbm, ⟨74, _⟩ => ⟨S150000x256, .i1⟩
  | .hbm, ⟨75, _⟩ => ⟨S_, .f32⟩
  | .hbm, ⟨76, _⟩ => ⟨S150000x256, .f32⟩
  | .hbm, ⟨77, _⟩ => ⟨S150000x256, .f32⟩
  | .hbm, ⟨78, _⟩ => ⟨S256x256, .f32⟩
  | .hbm, ⟨79, _⟩ => ⟨S256x256, .f32⟩
  | .hbm, ⟨80, _⟩ => ⟨S150000x256, .f32⟩
  | .local _ .vmem, ⟨0, _⟩ => ⟨S3000x256, .f32⟩
  | .local _ .vmem, ⟨1, _⟩ => ⟨S3000x256, .f32⟩
  | .local _ .vmem, ⟨2, _⟩ => ⟨S3000x256, .f32⟩
  | .local _ .vmem, ⟨3, _⟩ => ⟨S3000x256, .f32⟩
  | .local _ .vmem, ⟨4, _⟩ => ⟨S3000x256, .f32⟩
  | .local _ .vmem, ⟨5, _⟩ => ⟨S3000x256, .f32⟩
  | .local _ .vmem, ⟨6, _⟩ => ⟨S256x256, .f32⟩
  | .local _ .vmem, ⟨7, _⟩ => ⟨S256x256, .f32⟩
  | .local _ .vmem, ⟨8, _⟩ => ⟨S256, .f32⟩
  | .local _ .vmem, ⟨9, _⟩ => ⟨S256, .f32⟩
  | .local _ .vmem, ⟨10, _⟩ => ⟨S3000x256, .f32⟩
  | .local _ .vmem, ⟨11, _⟩ => ⟨S3000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_v3 : Ref sig .tc := ⟨.hbm, 78, rfl⟩
abbrev main_v4 : Ref sig .tc := ⟨.hbm, 79, rfl⟩
abbrev main_v5 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  reducesTo_S150000x1_S150000_d1 : S150000x1.ReducesTo [1] S150000
  h_S_ : 0 < S_.numel
  bcast_S150000_S150000x256_0 : S150000.BroadcastsInDim S150000x256 (![0] : Fin 1 → Fin S150000x256.rank)
  bcast_S_S150000x256 : S_.BroadcastsInDim S150000x256 (![] : Fin 0 → Fin S150000x256.rank)
  transposes_S256x256_S256x256_1_0 : S256x256.Transposes [1, 0] S256x256
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S3000x256 : S1x256.Broadcasts S3000x256
  gather_S50000x256_S150000x1_S150000x256_1_0_n_n_0_1_1256_wf : GatherDims.WF S50000x256 S150000x1 S150000x256 [1] [0] [] [0] [] 1 ![1, 256]
  gather_S100000x256_S150000x1_S150000x256_1_0_n_n_0_1_1256_wf : GatherDims.WF S100000x256 S150000x1 S150000x256 [1] [0] [] [0] [] 1 ![1, 256]
  dot_S3000x256_S256x256_S3000x256_1_0_0_1_n_n_wf : DotDims.WF S3000x256 S256x256 S3000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S150000x256.size a
  hwx0_0 : ∀ i : grid0.Coords, EltTy.bits .f32 = 32 ∨ (Rect.block (s := S150000x256) S3000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x256.size a ≤ S150000x256.size a
  hwx0_1 : ∀ i : grid0.Coords, EltTy.bits .f32 = 32 ∨ (Rect.block (s := S150000x256) S3000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x256.size a ≤ S150000x256.size a
  hwx0_2 : ∀ i : grid0.Coords, EltTy.bits .f32 = 32 ∨ (Rect.block (s := S150000x256) S3000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x256.size a ≤ S150000x256.size a
  hwx0_7 : ∀ i : grid0.Coords, EltTy.bits .f32 = 32 ∨ (Rect.block (s := S150000x256) S3000x256.size (cc0_transform_7 i) (hinb0_7 i)).WholeWords (EltTy.packing .f32)

variable [Facts₀]

def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def gather_S100000x256_S150000x1_S150000x256_1_0_n_n_0_1_1256 : GatherDims S100000x256 S150000x1 S150000x256 where
  offsetDims := [1]
  collapsedSliceDims := [0]
  operandBatchingDims := []
  startIndicesBatchingDims := []
  startIndexMap := [0]
  indexVectorDim := 1
  sliceSizes := ![1, 256]
  wf := gather_S100000x256_S150000x1_S150000x256_1_0_n_n_0_1_1256_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf

abbrev win0_0 : Pipeline.Window sig grid0 :=
  Pipeline.Window.ofSpec (Memref.whole main_v0) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S3000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S150000 : Shape := ⟨1, ![150000]⟩
abbrev S_ : Shape := ⟨0, ![]⟩
abbrev S150000x1 : Shape := ⟨2, ![150000, 1]⟩
abbrev S150000x256 : Shape := ⟨2, ![150000, 256]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S150000, .i32⟩
  | .hbm, ⟨7, _⟩ => ⟨S150000, .i32⟩
  | .hbm, ⟨8, _⟩ => ⟨S150000, .i32⟩
  | .hbm, ⟨9, _⟩ => ⟨S_, .i32⟩
  | .hbm, ⟨10, _⟩ => ⟨S150000, .i32⟩
  | .hbm, ⟨11, _⟩ => ⟨S150000, .i1⟩
  | .hbm, ⟨12, _⟩ => ⟨S_, .i32⟩
  | .hbm, ⟨13, _⟩ => ⟨S150000, .i32⟩
  | .hbm, ⟨14, _⟩ => ⟨S150000, .i32⟩
  | .hbm, ⟨15, _⟩ => ⟨S150000, .i32⟩
  | .hbm, ⟨16, _⟩ => ⟨S150000x1, .i32⟩
  | .hbm, ⟨17, _⟩ => ⟨S150000x256, .f32⟩
  | .hbm, ⟨18, _⟩ => ⟨S_, .i32⟩
  | .hbm, ⟨19, _⟩ => ⟨S150000, .i32⟩
  | .hbm, ⟨20, _⟩ => ⟨S150000, .i1⟩
  | .hbm, ⟨21, _⟩ => ⟨S_, .i32⟩
  | .hbm, ⟨22, _⟩ => ⟨S150000, .i32⟩
  | .hbm, ⟨23, _⟩ => ⟨S150000, .i32⟩
  | .hbm, ⟨24, _⟩ => ⟨S150000, .i32⟩
  | .hbm, ⟨25, _⟩ => ⟨S150000x1, .i32⟩
  | .hbm, ⟨26, _⟩ => ⟨S150000x256, .f32⟩
  | .hbm, ⟨27, _⟩ => ⟨S_, .i32⟩
  | .hbm, ⟨28, _⟩ => ⟨S150000, .i32⟩
  | .hbm, ⟨29, _⟩ => ⟨S150000, .i1⟩
  | .hbm, ⟨30, _⟩ => ⟨S_, .i32⟩
  | .hbm, ⟨31, _⟩ => ⟨S150000, .i32⟩
  | .hbm, ⟨32, _⟩ => ⟨S150000, .i32⟩
  | .hbm, ⟨33, _⟩ => ⟨S150000, .i32⟩
  | .hbm, ⟨34, _⟩ => ⟨S150000x1, .i32⟩
  | .hbm, ⟨35, _⟩ => ⟨S150000x256, .f32⟩
  | .hbm, ⟨36, _⟩ => ⟨S150000x256, .f32⟩
  | .hbm, ⟨37, _⟩ => ⟨S150000x256, .f32⟩
  | .hbm, ⟨38, _⟩ => ⟨S1x256, .f32⟩
  | .hbm, ⟨39, _⟩ => ⟨S150000x256, .f32⟩
  | .hbm, ⟨40, _⟩ => ⟨S150000x256, .f32⟩
  | .hbm, ⟨41, _⟩ => ⟨S_, .f32⟩
  | .hbm, ⟨42, _⟩ => ⟨S150000x256, .f32⟩
  | .hbm, ⟨43, _⟩ => ⟨S150000x256, .f32⟩
  | .hbm, ⟨44, _⟩ => ⟨S150000x256, .f32⟩
  | .hbm, ⟨45, _⟩ => ⟨S1x256, .f32⟩
  | .hbm, ⟨46, _⟩ => ⟨S150000x256, .f32⟩
  | .hbm, ⟨47, _⟩ => ⟨S150000x256, .f32⟩
  | .hbm, ⟨48, _⟩ => ⟨S_, .f32⟩
  | .hbm, ⟨49, _⟩ => ⟨S150000x256, .f32⟩
  | .hbm, ⟨50, _⟩ => ⟨S150000x256, .f32⟩
  | .hbm, ⟨51, _⟩ => ⟨S150000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S256_S1x256_1 : S256.BroadcastsInDim S1x256 (![1] : Fin 1 → Fin S1x256.rank)
  bcast_S1x256_S150000x256_0_1 : S1x256.BroadcastsInDim S150000x256 (![0, 1] : Fin 2 → Fin S150000x256.rank)
  bcast_S_S150000x256 : S_.BroadcastsInDim S150000x256 (![] : Fin 0 → Fin S150000x256.rank)
  gather_S50000x256_S150000x1_S150000x256_1_0_n_n_0_1_1256_wf : GatherDims.WF S50000x256 S150000x1 S150000x256 [1] [0] [] [0] [] 1 ![1, 256]
  gather_S100000x256_S150000x1_S150000x256_1_0_n_n_0_1_1256_wf : GatherDims.WF S100000x256 S150000x1 S150000x256 [1] [0] [] [0] [] 1 ![1, 256]
  dot_S150000x256_S256x256_S150000x256_1_1_0_0_n_n_wf : DotDims.WF S150000x256 S256x256 S150000x256 [1] [1] [0] [0] [] []

variable [Facts₀]

def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def gather_S100000x256_S150000x1_S150000x256_1_0_n_n_0_1_1256 : GatherDims S100000x256 S150000x1 S150000x256 where
  offsetDims := [1]
  collapsedSliceDims := [0]
  operandBatchingDims := []
  startIndicesBatchingDims := []
  startIndexMap := [0]
  indexVectorDim := 1
  sliceSizes := ![1, 256]
  wf := gather_S100000x256_S150000x1_S150000x256_1_0_n_n_0_1_1256_wf
def dot_S150000x256_S256x256_S150000x256_1_1_0_0_n_n : DotDims S150000x256 S256x256 S150000x256 where
  lhsContracting := [1]
  rhsContracting := [1]
  lhsNonContracting := [0]
  rhsNonContracting := [0]
  lhsBatch := []
  rhsBatch := []
  wf := dot_S150000x256_S256x256_S150000x256_1_1_0_0_n_n_wf

class Facts : Prop extends Facts₀ where

variable [Facts]
-- ==== Proof.Spec.lean ====
/-
  The function both programs compute, index by index, on the extended reals.

  From three tables of `R` rows by 256 features — `cur`, `par`, `chi` (the looked-up current embedding, parent
  features and child features of each path) — the result at row `p`, output feature `q` is

      max (∑ₖ cur[p,k] · T₂[k,q] + b₂[q]) 0  +  max (∑ₖ (chi[p,k] − par[p,k]) · T₁[k,q] + b₁[q]) 0,

  two Linear + ReLU branches added. The weights enter TRANSPOSED (`T[k,q]`, input feature first), which is how a
  matrix product with the rows on the left reads them; a layer's own weight `W[q,k]` is `T[k,q]`.
  The zero the maximum is taken against is kept as the programs' own word for `0.0` and never evaluated: it is the
  same word on both sides.
-/
import Idealize.ShloMosaic.PureOps.Ideal
import Idealize.ShloMosaic.Lib.ValueIdx

noncomputable section

namespace Cert.PathEmbed

open Idealize.ShloMosaic Idealize.ShloMosaic.ValueIdx

/-- A layer's weight `W[q,k]` (output feature first) read input feature first: `Wᵀ[k,q] = W[q,k]`. -/
def transposed (W : FVec Ideal ⟨2, ![256, 256]⟩ .f32) : FVec Ideal ⟨2, ![256, 256]⟩ .f32 := fun j => W (ix2 (j 1) (j 0))

/-- One Linear + ReLU branch at row `p`, output feature `q`: `max (∑ₖ a[p,k] · T[k,q] + b[q]) 0`. -/
def branch {R : Nat} (a : FVec Ideal ⟨2, ![R, 256]⟩ .f32) (T : FVec Ideal ⟨2, ![256, 256]⟩ .f32)
    (b : FVec Ideal ⟨1, ![256]⟩ .f32) (p : Fin R) (q : Fin 256) : EReal :=
  max (∑ k : Fin 256, a (ix2 p k) * T (ix2 k q) + b (ix1 q)) (Ideal.ofBits .f32 0x00000000#32)

/-- The result over `R` rows: the current-embedding branch plus the branch of the child-minus-parent difference. -/
def result {R : Nat} (cur par chi : FVec Ideal ⟨2, ![R, 256]⟩ .f32) (T₁ : FVec Ideal ⟨2, ![256, 256]⟩ .f32)
    (b₁ : FVec Ideal ⟨1, ![256]⟩ .f32) (T₂ : FVec Ideal ⟨2, ![256, 256]⟩ .f32) (b₂ : FVec Ideal ⟨1, ![256]⟩ .f32) :
    FVec Ideal ⟨2, ![R, 256]⟩ .f32 :=
  fun i => branch cur T₂ b₂ (i 0) (i 1) + branch (subf chi par) T₁ b₁ (i 0) (i 1)

/-- The result at coordinates. -/
theorem result_ix2 {R : Nat} (cur par chi : FVec Ideal ⟨2, ![R, 256]⟩ .f32) (T₁ : FVec Ideal ⟨2, ![256, 256]⟩ .f32)
    (b₁ : FVec Ideal ⟨1, ![256]⟩ .f32) (T₂ : FVec Ideal ⟨2, ![256, 256]⟩ .f32) (b₂ : FVec Ideal ⟨1, ![256]⟩ .f32)
    (p : Fin R) (q : Fin 256) :
    result cur par chi T₁ b₁ T₂ b₂ (ix2 p q) = branch cur T₂ b₂ p q + branch (subf chi par) T₁ b₁ p q := rfl

/-- A branch depends on its table only through row `p`, on its weight through column `q`, on its bias at `q`. -/
theorem branch_congr {R R' : Nat} (a : FVec Ideal ⟨2, ![R, 256]⟩ .f32) (a' : FVec Ideal ⟨2, ![R', 256]⟩ .f32)
    (T T' : FVec Ideal ⟨2, ![256, 256]⟩ .f32) (b b' : FVec Ideal ⟨1, ![256]⟩ .f32) (p : Fin R) (p' : Fin R')
    (q q' : Fin 256) (ha : ∀ k : Fin 256, a (ix2 p k) = a' (ix2 p' k)) (hT : ∀ k : Fin 256, T (ix2 k q) = T' (ix2 k q'))
    (hb : b (ix1 q) = b' (ix1 q')) : branch a T b p q = branch a' T' b' p' q' := by
  unfold branch
  rw [hb, Finset.sum_congr rfl fun k _ => by rw [ha k, hT k]]

end Cert.PathEmbed

end
-- ==== Proof.Payload.lean ====
/-
  The kernel body's arithmetic, at an index of a block.

  On one tile of 3000 rows the body computes, from the tile's blocks of the three looked-up tables and the whole
  (transposed) weights and biases, exactly `PathEmbed.result` over those 3000 rows. At the extended reals the
  narrowing of the matrix product's operands to 16 bits is the identity, a product into a zero accumulator is the
  plain sum over the contracted axis, the bias row spread over the tile reads the bias at the column, and the
  maximum against the splat `0.0` is the ReLU.
-/
import proofs.«422794_j36455682409151_1_alg».proof.Proof.Gen.KernelIdeal.Skeleton
import proofs.«422794_j36455682409151_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.PathEmbed

/-- The tile product's left operand is read at the output's row: axis 0 of the left index is the output's row. -/
theorem lhs_row (j : S3000x256.Idx) (k : dot_S3000x256_S256x256_S3000x256_1_0_0_1_n_n.contr.Idx) :
    (dot_S3000x256_S256x256_S3000x256_1_0_0_1_n_n.lhsIdx j k 0).val = (j 0).val := by
  unfold DotDims.lhsIdx
  rw [dif_neg (show ¬(0 : Fin S3000x256.rank) ∈ dot_S3000x256_S256x256_S3000x256_1_0_0_1_n_n.lhsBatch by decide), dif_pos (show (0 : Fin S3000x256.rank) ∈ dot_S3000x256_S256x256_S3000x256_1_0_0_1_n_n.lhsNonContracting by decide)]
  rfl
/-- Axis 1 of the left index is the contracted coordinate. -/
theorem lhs_contr (j : S3000x256.Idx) (k : dot_S3000x256_S256x256_S3000x256_1_0_0_1_n_n.contr.Idx) :
    (dot_S3000x256_S256x256_S3000x256_1_0_0_1_n_n.lhsIdx j k 1).val = (k ⟨0, by decide⟩).val :=
  dot_S3000x256_S256x256_S3000x256_1_0_0_1_n_n.lhsIdx_val_of_single rfl j k
/-- Axis 0 of the right index is the contracted coordinate. -/
theorem rhs_contr (j : S3000x256.Idx) (k : dot_S3000x256_S256x256_S3000x256_1_0_0_1_n_n.contr.Idx) :
    (dot_S3000x256_S256x256_S3000x256_1_0_0_1_n_n.rhsIdx j k 0).val = (k ⟨0, by decide⟩).val :=
  dot_S3000x256_S256x256_S3000x256_1_0_0_1_n_n.rhsIdx_val_of_single rfl j k
/-- Axis 1 of the right index is the output's column. -/
theorem rhs_col (j : S3000x256.Idx) (k : dot_S3000x256_S256x256_S3000x256_1_0_0_1_n_n.contr.Idx) :
    (dot_S3000x256_S256x256_S3000x256_1_0_0_1_n_n.rhsIdx j k 1).val = (j 1).val := by
  unfold DotDims.rhsIdx
  rw [dif_neg (show ¬(1 : Fin S256x256.rank) ∈ dot_S3000x256_S256x256_S3000x256_1_0_0_1_n_n.rhsBatch by decide), dif_pos (show (1 : Fin S256x256.rank) ∈ dot_S3000x256_S256x256_S3000x256_1_0_0_1_n_n.rhsNonContracting by decide)]
  rfl

/-- THE TILE PRODUCT into a zero accumulator, at row `p` and column `q`: `∑ₖ l[p,k] · r[k,q]`. -/
theorem product_apply {φ₁ φ₂ : FTy} (l : FVec Ideal S3000x256 φ₁) (r : FVec Ideal S256x256 φ₂) (p : Fin 3000) (q : Fin 256) :
    matmul dot_S3000x256_S256x256_S3000x256_1_0_0_1_n_n none l r (constant S3000x256 .f32 0x00000000#32) (ix2 p q)
      = ∑ k : Fin 256, l (ix2 p k) * r (ix2 k q) := by
  show FloatOps.matmul dot_S3000x256_S256x256_S3000x256_1_0_0_1_n_n none l r (constant S3000x256 .f32 0x00000000#32) (ix2 p q) = _
  rw [Ideal.matmul_constant_zero_apply, ← Equiv.sum_comp (contrEquiv1 dot_S3000x256_S256x256_S3000x256_1_0_0_1_n_n 256 rfl rfl).symm]
  refine Finset.sum_congr rfl fun k _ => ?_
  have hk := contrEquiv1_symm_val dot_S3000x256_S256x256_S3000x256_1_0_0_1_n_n 256 rfl rfl k
  have el : dot_S3000x256_S256x256_S3000x256_1_0_0_1_n_n.lhsIdx (ix2 p q) ((contrEquiv1 dot_S3000x256_S256x256_S3000x256_1_0_0_1_n_n 256 rfl rfl).symm k) = ix2 p k := funext fun a => Fin.ext (by
    match a with
    | ⟨0, _⟩ => exact lhs_row _ _
    | ⟨1, _⟩ => exact (lhs_contr _ _).trans hk)
  have er : dot_S3000x256_S256x256_S3000x256_1_0_0_1_n_n.rhsIdx (ix2 p q) ((contrEquiv1 dot_S3000x256_S256x256_S3000x256_1_0_0_1_n_n 256 rfl rfl).symm k) = ix2 k q := funext fun a => Fin.ext (by
    match a with
    | ⟨0, _⟩ => exact (rhs_contr _ _).trans hk
    | ⟨1, _⟩ => exact rhs_col _ _)
  rw [el, er]

/-- THE BODY'S VALUE: on a tile, the stored block is `PathEmbed.result` of the tile's blocks (`chi`, `par`, `cur`
    the child, parent and current rows of the tile; `T₁`, `T₂` the transposed weights; `b₁`, `b₂` the biases). -/
theorem payload_eq (chi par : Vec Ideal S3000x256 .f32) (T₁ : Vec Ideal S256x256 .f32) (b₁ : Vec Ideal S256 .f32)
    (cur : Vec Ideal S3000x256 .f32) (T₂ : Vec Ideal S256x256 .f32) (b₂ : Vec Ideal S256 .f32) :
    k0_pay1 (F := Ideal) chi par T₁ b₁ cur T₂ b₂ = result (R := 3000) cur par chi T₁ b₁ T₂ b₂ := by
  funext j
  obtain ⟨p, q, rfl⟩ : ∃ (p : Fin 3000) (q : Fin 256), j = ix2 p q := ⟨j 0, j 1, eq_ix2 j⟩
  rw [result_ix2]
  unfold k0_pay1 branch
  simp only [shapeCast_self]
  rw [addf_apply, maximumf_apply, maximumf_apply, addf_apply, addf_apply, product_apply, product_apply,
    broadcastTo_1b_ab_apply, broadcastTo_1b_ab_apply, shapeCast_a_1a_apply, shapeCast_a_1a_apply]
  rfl

end Cert.KernelIdeal.Body

end
-- ==== Proof.MaskedLookup.lean ====
/-
  Words and masks of a bounds-checked row lookup.

  A lookup by an integer index first WRAPS a negative index (it counts from the end: `x < 0 ↦ x + n`), then tests
  `0 ≤ w ≤ n - 1` on the wrapped index `w`, and keeps the looked-up row where the test holds, a fill value elsewhere.
  When every index lies in `[-n, n)` the wrapped index lies in `[0, n - 1]`, the test holds at every position, and the
  lookup is the plain one: the fill value is never read.
-/
import Idealize.ShloMosaic.Lib.ReduceAll
import Idealize.ShloMosaic.Lib.ValueIdx
import Idealize.ShloMosaic.PureOps

noncomputable section

namespace Cert.MaskedLookup

open Idealize.ShloMosaic Idealize.ShloMosaic.ValueIdx

/-- A select whose mask is set at every index is its first branch. -/
theorem select_eq_left {s : Shape} {α : Type} (c : IVec s 1) (a b : s.Idx → α) (h : ∀ i, c i = 1#1) :
    select c a b = a := by
  funext i
  rw [select_apply, h i, select_one]

/-- Broadcasting an array of ones gives ones: every result element is some operand element. -/
theorem broadcastInDim_ones {s t : Shape} (dims : Fin s.rank → Fin t.rank) (h : s.BroadcastsInDim t dims)
    (x : IVec s 1) (hx : ∀ k, x k = 1#1) (j : t.Idx) : broadcastInDim t dims h x j = 1#1 := hx _

/-- `and` folded from 1 over words that are all 1 stays 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- An `and`-reduction, from 1, of an array of ones is 1 at every result index, whatever axes it reduces. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

/-- The sum of a word in `[-N, 0)` and the word `N` does not wrap. -/
theorem toInt_add_small (x n : BitVec 32) (N : ℤ) (hN0 : 0 < N) (hN1 : N < 2 ^ 30) (en : n.toInt = N)
    (hlo : -N ≤ x.toInt) (hneg : x.toInt < 0) : (x + n).toInt = x.toInt + N := by
  rw [BitVec.toInt_add, en]
  have h30 : (2 : ℤ) ^ 30 = 1073741824 := by norm_num
  rw [h30] at hN1
  rw [Int.bmod_def]
  norm_num
  omega

/-- THE WRAPPED INDEX PASSES THE RANGE TEST. For a word `x` with `-N ≤ x < N` (signed), the wrapped index
    `w = if x < 0 then x + N else x` satisfies `0 ≤ w` and `w ≤ N - 1`: the conjunction of the two tests is 1.
    The four words `lo`, `hi`, `n`, `top` are the program's literals for `-N`, `N`, `N` and `N - 1`. -/
theorem wrapped_passes (x lo hi n top : BitVec 32) (N : ℤ) (hN0 : 0 < N) (hN1 : N < 2 ^ 30)
    (elo : lo.toInt = -N) (ehi : hi.toInt = N) (en : n.toInt = N) (etop : top.toInt = N - 1)
    (h1 : IntOp.cmpi .sge x lo = 1#1) (h2 : IntOp.cmpi .slt x hi = 1#1) :
    IntOp.andi (IntOp.cmpi .sge (Scalar.select (IntOp.cmpi .slt x 0#32) (IntOp.addi x n) x) 0#32)
      (IntOp.cmpi .sle (Scalar.select (IntOp.cmpi .slt x 0#32) (IntOp.addi x n) x) top) = 1#1 := by
  rw [IntOp.cmpi_sge, elo] at h1
  rw [IntOp.cmpi_slt, ehi] at h2
  have z : (0#32 : BitVec 32).toInt = 0 := rfl
  rw [IntOp.andi_eq_one, IntOp.cmpi_sge, IntOp.cmpi_sle, etop, z]
  by_cases hx : x.toInt < 0
  · have c : IntOp.cmpi .slt x 0#32 = 1#1 := IntOp.cmpi_slt.2 (by rw [z]; exact hx)
    have e : (IntOp.addi x n).toInt = x.toInt + N := toInt_add_small x n N hN0 hN1 en h1 hx
    rw [c, select_one, e]
    omega
  · have c : IntOp.cmpi .slt x 0#32 = 0#1 :=
      eq_zero_of_ne_one (fun h => hx (by rw [IntOp.cmpi_slt, z] at h; exact h))
    rw [c, select_zero]
    omega

end Cert.MaskedLookup

end
-- ==== Proof.KernelInputs.lean ====
/-
  What the kernel's windows hold when the region is entered.

  Before the tiled region the program looks up three tables of rows — the current embeddings by path id, the features
  by parent index and by neighbour index — each by a BOUNDS-CHECKED lookup (`lookup` below: a negative index counts
  from the end, and a row whose wrapped index falls outside the table is filled with a fixed word), and transposes the
  two weight matrices. Where every index lies in `[-N, N)` for a table of `N` rows no row is filled, and the lookup is
  the plain row gather at the wrapped indices (`lookup_eq_gather`).
-/
import proofs.«422794_j36455682409151_1_alg».proof.Proof.Gen.KernelIdeal.Value
import proofs.«422794_j36455682409151_1_alg».proof.Proof.MaskedLookup
import Idealize.ShloMosaic.Lib.StableHlo.Run

noncomputable section

namespace Cert.KernelIdeal.Inputs

open Cert.KernelIdeal Cert.KernelIdeal.Gen Idealize.ShloMosaic Idealize.ShloMosaic.TcCoe Idealize.SL.Sem
open Idealize.ShloMosaic.StableHlo

variable {F : FTy → Type} [FloatOps F]

/-- The index column a lookup reads rows by: each index, a negative one counted from the end (`x < 0 ↦ x + n`). -/
def wrapped (n : BitVec 32) (x : IVec S150000 32) : IVec S150000x1 32 :=
  broadcastInDim S150000x1 ![0] Facts₀.bcast_S150000_S150000x1_0
    (select (cmpi .slt x (broadcastInDim S150000 ![] Facts₀.bcast_S_S150000 (constantI S_ 32 0#32)))
      (addi x (broadcastInDim S150000 ![] Facts₀.bcast_S_S150000 (constantI S_ 32 n))) x)

/-- The lookup's range test `0 ≤ w ≤ top` on an index column, one bit per row, spread along the row. -/
def inRange (top : BitVec 32) (w : IVec S150000x1 32) : IVec S150000x256 1 :=
  broadcastInDim S150000x256 ![0] Facts₀.bcast_S150000_S150000x256_0
    (Host.reduce IntOp.andi
      (andi (cmpi .sge w (broadcastInDim S150000x1 ![] Facts₀.bcast_S_S150000x1 (constantI S_ 32 0#32)))
        (cmpi .sle w (broadcastInDim S150000x1 ![0, 1] Facts₀.bcast_S1x1_S150000x1_0_1
          (broadcastInDim S1x1 ![1] Facts₀.bcast_S1_S1x1_1 (constantI S1 32 top)))))
      (constantI S_ 1 1#1) Facts₀.reducesTo_S150000x1_S150000_d1 Facts₀.h_S_)

/-- The bounds-checked row lookup: row `p` of the result is the table's row at the wrapped index `w p` where
    `0 ≤ w p ≤ top`, and the fill word elsewhere. -/
def lookup {sT : Shape} (gd : GatherDims sT S150000x1 S150000x256) (n top : BitVec 32) (tbl : FVec F sT .f32)
    (x : IVec S150000 32) : FVec F S150000x256 .f32 :=
  select (inRange top (wrapped n x)) (Host.gather gd tbl (wrapped n x))
    (broadcastInDim S150000x256 ![] Facts₀.bcast_S_S150000x256 (constant S_ .f32 0x7FC00000#32))

/-- WHERE EVERY INDEX IS IN RANGE THE LOOKUP IS THE PLAIN GATHER. `lo`, `hi`, `n`, `top` are the words for `-N`, `N`,
    `N`, `N - 1`; `h` says `lo ≤ x p < hi` (signed) at every position. Then the range test holds at every row
    (`MaskedLookup.wrapped_passes`), its reduction along the unit axis and its spread along the row are 1 everywhere,
    and the select keeps the gathered row. -/
theorem lookup_eq_gather {sT : Shape} (gd : GatherDims sT S150000x1 S150000x256) (lo hi n top : BitVec 32) (N : ℤ)
    (hN0 : 0 < N) (hN1 : N < 2 ^ 30) (elo : lo.toInt = -N) (ehi : hi.toInt = N) (en : n.toInt = N)
    (etop : top.toInt = N - 1) (tbl : FVec F sT .f32) (x : IVec S150000 32)
    (h : ∀ p : S150000.Idx, IntOp.cmpi .sge (x p) lo = 1#1 ∧ IntOp.cmpi .slt (x p) hi = 1#1) :
    lookup gd n top tbl x = Host.gather gd tbl (wrapped n x) := by
  unfold lookup
  refine MaskedLookup.select_eq_left _ _ _ fun i => ?_
  unfold inRange
  refine MaskedLookup.broadcastInDim_ones _ _ _ (fun k => ?_) i
  refine MaskedLookup.reduce_andi_ones _ _ _ _ (fun j => ?_) (fun _ => rfl) k
  exact MaskedLookup.wrapped_passes (x _) lo hi n top N hN0 hN1 elo ehi en etop (h _).1 (h _).2

variable (m : (ℓ : Loc nD τ sig) → Buf (Elt F) ℓ)

set_option maxHeartbeats 1000000 in
set_option maxRecDepth 1000000 in
/-- Window 0's array: the current embeddings looked up by path id. -/
theorem window0 (c : Dev nD) : (V m c main_v0 : S150000x256.Idx → Elt F .f32) =
    lookup gather_S50000x256_S150000x1_S150000x256_1_0_n_n_0_1_1256 50000#32 49999#32
      (m ((c : Thread nD τ).loc main_arg1)) (m ((c : Thread nD τ).loc main_arg6)) := by
  dsimp only [Gen.V]
  simp only [Gen.hostOps0, Gen.hostOps0_1, Gen.hostOps0_2, Gen.hostOps0_3, List.flatten_cons, List.flatten_nil, List.append_nil, List.cons_append, List.nil_append]
  after_results_simp
  simp only [TRef.toBuf, TRef.ofBuf, cast_eq]
  rfl

set_option maxHeartbeats 1000000 in
set_option maxRecDepth 1000000 in
/-- Window 1's array: the features looked up by parent index. -/
theorem window1 (c : Dev nD) : (V m c main_v1 : S150000x256.Idx → Elt F .f32) =
    lookup gather_S100000x256_S150000x1_S150000x256_1_0_n_n_0_1_1256 100000#32 99999#32
      (m ((c : Thread nD τ).loc main_arg0)) (m ((c : Thread nD τ).loc main_arg7)) := by
  dsimp only [Gen.V]
  simp only [Gen.hostOps0, Gen.hostOps0_1, Gen.hostOps0_2, Gen.hostOps0_3, List.flatten_cons, List.flatten_nil, List.append_nil, List.cons_append, List.nil_append]
  after_results_simp
  simp only [TRef.toBuf, TRef.ofBuf, cast_eq]
  rfl

set_option maxHeartbeats 1000000 in
set_option maxRecDepth 1000000 in
/-- Window 2's array: the features looked up by neighbour index. -/
theorem window2 (c : Dev nD) : (V m c main_v2 : S150000x256.Idx → Elt F .f32) =
    lookup gather_S100000x256_S150000x1_S150000x256_1_0_n_n_0_1_1256 100000#32 99999#32
      (m ((c : Thread nD τ).loc main_arg0)) (m ((c : Thread nD τ).loc main_arg8)) := by
  dsimp only [Gen.V]
  simp only [Gen.hostOps0, Gen.hostOps0_1, Gen.hostOps0_2, Gen.hostOps0_3, List.flatten_cons, List.flatten_nil, List.append_nil, List.cons_append, List.nil_append]
  after_results_simp
  simp only [TRef.toBuf, TRef.ofBuf, cast_eq]
  rfl

/-- Window 3's array: the first layer's weight, transposed. -/
theorem window3 (c : Dev nD) : (V m c main_v3 : S256x256.Idx → Elt F .f32) =
    transpose S256x256 [1, 0] (m ((c : Thread nD τ).loc main_arg2)) Facts₀.transposes_S256x256_S256x256_1_0 := by
  dsimp only [Gen.V]
  simp only [Gen.hostOps0, Gen.hostOps0_1, Gen.hostOps0_2, Gen.hostOps0_3, List.flatten_cons, List.flatten_nil, List.append_nil, List.cons_append, List.nil_append]
  after_results

/-- Window 4's array: the second layer's weight, transposed. -/
theorem window4 (c : Dev nD) : (V m c main_v4 : S256x256.Idx → Elt F .f32) =
    transpose S256x256 [1, 0] (m ((c : Thread nD τ).loc main_arg4)) Facts₀.transposes_S256x256_S256x256_1_0 := by
  dsimp only [Gen.V]
  simp only [Gen.hostOps0, Gen.hostOps0_1, Gen.hostOps0_2, Gen.hostOps0_3, List.flatten_cons, List.flatten_nil, List.append_nil, List.cons_append, List.nil_append]
  after_results

end Cert.KernelIdeal.Inputs

end
-- ==== Proof.KernelWhole.lean ====
/-
  From tiles to the whole array.

  The region runs the body on 50 tiles of 3000 rows; tile `t` reads rows `3000 t … 3000 t + 2999` of the three
  looked-up tables and the whole weights and biases, and writes back the same rows of the output. Since the
  body's value on a tile is `PathEmbed.result` of the tile's rows, and a row of `result` depends only on the same
  row of its tables, what tile `t` writes back is block `t` of `result` of the WHOLE tables. The tiles cover every
  row (row `r` is in tile `r / 3000`), so after the run the output array is that one function.
-/
import proofs.«422794_j36455682409151_1_alg».proof.Proof.Gen.KernelIdeal.Value
import proofs.«422794_j36455682409151_1_alg».proof.Proof.Payload
import proofs.«422794_j36455682409151_1_alg».proof.Proof.KernelInputs
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.PathEmbed
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The output array as one function of the arrays the region finds: `result` over all 150000 rows. -/
abbrev whole (c : Dev nD) : S150000x256.Idx → Elt Ideal .f32 :=
  result (R := 150000) (V m c main_v0) (V m c main_v1) (V m c main_v2) (V m c main_v3) (V m c main_arg3)
    (V m c main_v4) (V m c main_arg5)

/-- The printed index maps, decided over the 50 tiles: the output and the three tables move to block row `t`,
    column block 0; the weights and biases stay at block 0. -/
theorem tile_maps : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 :=
  (by decide +kernel : ∀ t : Fin grid0.N, _)

/-- Tile `t`'s block of the current-embedding rows is rows `3000 t + p` of the array. -/
theorem cur_block (c : Dev nD) (t : Fin cfg0.N) (p : Fin 3000) (k : Fin 256) (ht : t.val < 50) :
    iblk m c 0 t (ix2 p k) = V m c main_v0 (ix2 (⟨t.val * 3000 + p.val, by have := p.isLt; omega⟩ : Fin 150000) k) := by
  obtain ⟨o0, o1, a0, a1, b0, b1, c0, c1, d0, d1, e0, e1, f0, g0⟩ := tile_maps t
  show V m c main_v0 (((cfg0.win 0).blk t).view.emb (ix2 p k)) = _
  refine congrArg _ (funext fun a => Fin.ext ?_)
  match a with
  | ⟨0, _⟩ => show win0_0.index t (0 : Fin 2) * 3000 + 1 * p.val = t.val * 3000 + p.val; omega
  | ⟨1, _⟩ => show win0_0.index t (1 : Fin 2) * 256 + 1 * k.val = k.val; omega
/-- Tile `t`'s block of the parent rows. -/
theorem par_block (c : Dev nD) (t : Fin cfg0.N) (p : Fin 3000) (k : Fin 256) (ht : t.val < 50) :
    iblk m c 1 t (ix2 p k) = V m c main_v1 (ix2 (⟨t.val * 3000 + p.val, by have := p.isLt; omega⟩ : Fin 150000) k) := by
  obtain ⟨o0, o1, a0, a1, b0, b1, c0, c1, d0, d1, e0, e1, f0, g0⟩ := tile_maps t
  show V m c main_v1 (((cfg0.win 1).blk t).view.emb (ix2 p k)) = _
  refine congrArg _ (funext fun a => Fin.ext ?_)
  match a with
  | ⟨0, _⟩ => show win0_1.index t (0 : Fin 2) * 3000 + 1 * p.val = t.val * 3000 + p.val; omega
  | ⟨1, _⟩ => show win0_1.index t (1 : Fin 2) * 256 + 1 * k.val = k.val; omega
/-- Tile `t`'s block of the child rows. -/
theorem chi_block (c : Dev nD) (t : Fin cfg0.N) (p : Fin 3000) (k : Fin 256) (ht : t.val < 50) :
    iblk m c 2 t (ix2 p k) = V m c main_v2 (ix2 (⟨t.val * 3000 + p.val, by have := p.isLt; omega⟩ : Fin 150000) k) := by
  obtain ⟨o0, o1, a0, a1, b0, b1, c0, c1, d0, d1, e0, e1, f0, g0⟩ := tile_maps t
  show V m c main_v2 (((cfg0.win 2).blk t).view.emb (ix2 p k)) = _
  refine congrArg _ (funext fun a => Fin.ext ?_)
  match a with
  | ⟨0, _⟩ => show win0_2.index t (0 : Fin 2) * 3000 + 1 * p.val = t.val * 3000 + p.val; omega
  | ⟨1, _⟩ => show win0_2.index t (1 : Fin 2) * 256 + 1 * k.val = k.val; omega
/-- Every tile's block of the first transposed weight is the whole matrix. -/
theorem w1_block (c : Dev nD) (t : Fin cfg0.N) (k q : Fin 256) :
    iblk m c 3 t (ix2 k q) = V m c main_v3 (ix2 k q) := by
  obtain ⟨o0, o1, a0, a1, b0, b1, c0, c1, d0, d1, e0, e1, f0, g0⟩ := tile_maps t
  show V m c main_v3 (((cfg0.win 3).blk t).view.emb (ix2 k q)) = _
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega
/-- Every tile's block of the second transposed weight is the whole matrix. -/
theorem w2_block (c : Dev nD) (t : Fin cfg0.N) (k q : Fin 256) :
    iblk m c 4 t (ix2 k q) = V m c main_v4 (ix2 k q) := by
  obtain ⟨o0, o1, a0, a1, b0, b1, c0, c1, d0, d1, e0, e1, f0, g0⟩ := tile_maps t
  show V m c main_v4 (((cfg0.win 4).blk t).view.emb (ix2 k q)) = _
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega
/-- Every tile's block of the first bias is the whole vector. -/
theorem b1_block (c : Dev nD) (t : Fin cfg0.N) (q : Fin 256) :
    iblk m c 5 t (ix1 q) = V m c main_arg3 (ix1 q) := by
  obtain ⟨o0, o1, a0, a1, b0, b1, c0, c1, d0, d1, e0, e1, f0, g0⟩ := tile_maps t
  show V m c main_arg3 (((cfg0.win 5).blk t).view.emb (ix1 q)) = _
  refine congrArg _ (funext fun a => Fin.ext ?_)
  match a with
  | ⟨0, _⟩ => show win0_5.index t (0 : Fin 1) * 256 + 1 * q.val = q.val; omega
/-- Every tile's block of the second bias is the whole vector. -/
theorem b2_block (c : Dev nD) (t : Fin cfg0.N) (q : Fin 256) :
    iblk m c 6 t (ix1 q) = V m c main_arg5 (ix1 q) := by
  obtain ⟨o0, o1, a0, a1, b0, b1, c0, c1, d0, d1, e0, e1, f0, g0⟩ := tile_maps t
  show V m c main_arg5 (((cfg0.win 6).blk t).view.emb (ix1 q)) = _
  refine congrArg _ (funext fun a => Fin.ext ?_)
  match a with
  | ⟨0, _⟩ => show win0_6.index t (0 : Fin 1) * 256 + 1 * q.val = q.val; omega

/-- WHAT TILE `t` WRITES BACK is block `t` of `whole`: the body's value on the tile's blocks, each block read
    where the output's rectangle says. -/
theorem flushed_eq (c : Dev nD) (t : Fin cfg0.N) :
    (dats m 0 c).flushed 7 t = ((cfg0.win 7).blk t).view.read (Elt Ideal) (whole m c) := by
  rw [Value.flushed7]
  unfold out0_7
  rw [View.canon_unit_zero origin2]
  simp only [View.ld_unit_zero (S := S3000x256) origin2, View.ld_unit_zero (S := S256x256) origin2,
    View.ld_unit_zero (S := S256) origin1]
  refine (congrArg ((cfg0.win 7).cut (grid0.coords t)) (Body.payload_eq (iblk m c 2 t) (iblk m c 1 t) (iblk m c 3 t)
    (iblk m c 5 t) (iblk m c 0 t) (iblk m c 4 t) (iblk m c 6 t))).trans ?_
  have ht : t.val < 50 := lt_of_lt_of_eq t.isLt N_0
  funext j
  obtain ⟨p, q, rfl⟩ : ∃ (p : Fin 3000) (q : Fin 256), j = ix2 p q := ⟨j 0, j 1, eq_ix2 j⟩
  have hI : ((cfg0.win 7).blk t).view.emb (ix2 p q)
      = ix2 (⟨t.val * 3000 + p.val, by have := p.isLt; omega⟩ : Fin 150000) q := by
    obtain ⟨o0, o1, -⟩ := tile_maps t
    funext a; apply Fin.ext
    match a with
    | ⟨0, _⟩ => show win0_7.index t (0 : Fin 2) * 3000 + 1 * p.val = t.val * 3000 + p.val; omega
    | ⟨1, _⟩ => show win0_7.index t (1 : Fin 2) * 256 + 1 * q.val = q.val; omega
  show result (R := 3000) (iblk m c 0 t) (iblk m c 1 t) (iblk m c 2 t) (iblk m c 3 t) (iblk m c 5 t) (iblk m c 4 t)
      (iblk m c 6 t) (ix2 p q) = whole m c (((cfg0.win 7).blk t).view.emb (ix2 p q))
  refine Eq.trans ?_ (congrArg (whole m c) hI).symm
  exact congrArg₂ (· + ·)
    (branch_congr (iblk m c 0 t) (V m c main_v0) (iblk m c 4 t) (V m c main_v4) (iblk m c 6 t) (V m c main_arg5) p _ q q
      (fun k => cur_block m c t p k ht) (fun k => w2_block m c t k q) (b2_block m c t q))
    (branch_congr (subf (iblk m c 2 t) (iblk m c 1 t)) (subf (V m c main_v2) (V m c main_v1)) (iblk m c 3 t)
      (V m c main_v3) (iblk m c 5 t) (V m c main_arg3) p _ q q
      (fun k => congrArg₂ (· - ·) (chi_block m c t p k ht) (par_block m c t p k ht)) (fun k => w1_block m c t k q)
      (b1_block m c t q))

/-- An index of the output array is in tile `t`'s block iff each coordinate is in the block's range on its axis. -/
theorem mem_tile (t : Fin cfg0.N) (i : S150000x256.Idx) :
    i ∈ ((cfg0.win 7).blk t).view.set ↔ ∀ a : Fin 2, win0_7.index t a * S3000x256.size a ≤ (i a).val ∧ (i a).val < win0_7.index t a * S3000x256.size a + S3000x256.size a := by
  show i ∈ ((View.whole main_v5).slice (win0_7.rect t)).set ↔ _
  rw [View.set_slice_whole, Rect.mem_set_unit]
  exact Iff.rfl

/-- THE TILES COVER THE ARRAY: row `r` lies in tile `r / 3000`, and every tile spans all 256 columns. -/
theorem tiles_cover (i : S150000x256.Idx) :
    ∃ t : Fin cfg0.N, (cfg0.win 7).flush t = true ∧ i ∈ ((cfg0.win 7).blk t).view.set := by
  have hi0 : (i 0).val < 150000 := (i 0).isLt
  have hi1 : (i 1).val < 256 := (i 1).isLt
  have hlt : (i 0).val / 3000 < cfg0.N := lt_of_lt_of_eq (by omega : (i 0).val / 3000 < 50) N_0.symm
  obtain ⟨o0, o1, -⟩ := tile_maps ⟨(i 0).val / 3000, hlt⟩
  have o0' : win0_7.index ⟨(i 0).val / 3000, hlt⟩ (0 : Fin 2) = (i 0).val / 3000 := o0
  refine ⟨⟨(i 0).val / 3000, hlt⟩, flush0_7 _, ?_⟩
  rw [mem_tile]
  intro a
  match a with
  | ⟨0, _⟩ =>
    show win0_7.index ⟨(i 0).val / 3000, hlt⟩ (0 : Fin 2) * 3000 ≤ (i 0).val ∧ (i 0).val < win0_7.index ⟨(i 0).val / 3000, hlt⟩ (0 : Fin 2) * 3000 + 3000
    omega
  | ⟨1, _⟩ =>
    show win0_7.index ⟨(i 0).val / 3000, hlt⟩ (1 : Fin 2) * 256 ≤ (i 1).val ∧ (i 1).val < win0_7.index ⟨(i 0).val / 3000, hlt⟩ (1 : Fin 2) * 256 + 256
    omega

/-- THE OUTPUT ARRAY AFTER THE RUN is `whole`. -/
theorem final (c : Dev nD) : (dats m 0 c).arrAt 7 cfg0.N = whole m c :=
  (dats m 0 c).arrAt_eq_of_cover 7 (whole m c) (fun t _ => flushed_eq m c t) tiles_cover

end Cert.KernelIdeal.Whole

end
-- ==== Proof.ReferenceStages.lean ====
/-
  The reference's result, stage by stage.

  The reference gathers the same three tables of rows (plain gathers at the wrapped indices), and applies to them
  two `Linear + ReLU` layers as `einsum('pi,oi->po', x, W) + b` then a maximum with 0, and adds the two. Read at an
  index, the contraction over `i` is the sum `∑ₖ x[p,k] · W[q,k]`, that is the product with the transposed weight:
  the reference's result is `PathEmbed.result` of its three gathers, the transposed weights and the biases.
-/
import proofs.«422794_j36455682409151_1_alg».proof.Proof.Gen.ReferenceIdeal.Read
import proofs.«422794_j36455682409151_1_alg».proof.Proof.Spec
import Idealize.ShloMosaic.Lib.ValueIdx

noncomputable section

namespace Cert.ReferenceIdeal.Stages

open Cert.ReferenceIdeal Cert.ReferenceIdeal.Read Idealize.ShloMosaic Idealize.ShloMosaic.ValueIdx Cert.PathEmbed

/-- The left operand of either contraction is read at the output's row and the contracted coordinate. -/
theorem lidx22 (p : Fin 150000) (q k : Fin 256) : lidx_main_v22 (ix2 p q) k = ix2 p k :=
  funext fun a => Fin.ext (by match a with | ⟨0, _⟩ => rfl | ⟨1, _⟩ => rfl)
theorem lidx27 (p : Fin 150000) (q k : Fin 256) : lidx_main_v27 (ix2 p q) k = ix2 p k :=
  funext fun a => Fin.ext (by match a with | ⟨0, _⟩ => rfl | ⟨1, _⟩ => rfl)
/-- The right operand (the weight, output feature first) at the output's column and the contracted coordinate. -/
theorem ridx22 (p : Fin 150000) (q k : Fin 256) : ridx_main_v22 (ix2 p q) k = ix2 q k :=
  funext fun a => Fin.ext (by match a with | ⟨0, _⟩ => rfl | ⟨1, _⟩ => rfl)
theorem ridx27 (p : Fin 150000) (q k : Fin 256) : ridx_main_v27 (ix2 p q) k = ix2 q k :=
  funext fun a => Fin.ext (by match a with | ⟨0, _⟩ => rfl | ⟨1, _⟩ => rfl)
/-- The bias, spread over the rows, is read at the output's column. -/
theorem bias24 (p : Fin 150000) (q : Fin 256) : idx_main_v23 (idx_main_v24 (ix2 p q)) = ix1 q :=
  funext fun a => Fin.ext (by match a with | ⟨0, _⟩ => rfl)
theorem bias29 (p : Fin 150000) (q : Fin 256) : idx_main_v28 (idx_main_v29 (ix2 p q)) = ix1 q :=
  funext fun a => Fin.ext (by match a with | ⟨0, _⟩ => rfl)

/-- THE REFERENCE'S RESULT is `result` of its three gather stages, the transposed weights and the biases. -/
theorem result_eq (x0 : (⟨S100000x256, .f32⟩ : BufTy).Contents (Elt Ideal)) (x1 : (⟨S50000x256, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 x7 x8 : (⟨S150000, .i32⟩ : BufTy).Contents (Elt Ideal)) :
    val_main_v32 (F := Ideal) x0 x1 x2 x3 x4 x5 x6 x7 x8
      = result (R := 150000) (val_main_v6 (F := Ideal) x1 x6) (val_main_v13 (F := Ideal) x0 x7) (val_main_v20 (F := Ideal) x0 x8)
          (transposed x2) x3 (transposed x4) x5 := by
  funext i
  obtain ⟨p, q, rfl⟩ : ∃ (p : Fin 150000) (q : Fin 256), i = ix2 p q := ⟨i 0, i 1, eq_ix2 i⟩
  rw [result_ix2, val_main_v32_apply, val_main_v31_apply, val_main_v26_apply, val_main_v30_apply, val_main_v25_apply,
    val_main_v27_apply, val_main_v22_apply, val_main_v29_apply, val_main_v28_apply, val_main_v24_apply, val_main_v23_apply,
    val_main_call0_v0_apply, val_main_call1_v0_apply, val_main_call0_cst_apply, val_main_call1_cst_apply, bias24, bias29]
  simp only [lidx22, lidx27, ridx22, ridx27]
  rfl

end Cert.ReferenceIdeal.Stages

end
-- ==== Proof.PreDecode.lean ====
/-
  The three index ranges, read out of the printed precondition.

  The precondition is a conjunction of whole-array tests, each an `and`-reduction of an elementwise test to one bit:
  six finiteness tests of the float inputs, then for each integer index input the test `-N ≤ x ∧ x < N` against the
  length `N` of the table it indexes. That the whole conjunction is 1 gives each test at every position.
-/
import proofs.«422794_j36455682409151_1_alg».proof.Pre_finite_inputs
import proofs.«422794_j36455682409151_1_alg».proof.Proof.Gen.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

variable {F : FTy → Type} [FloatOps F]

instance : Subsingleton S_.Idx := ⟨fun a b => funext fun d => d.elim0⟩

/-- One index input's test, read at a position: an `and`-reduction to one bit that is 1 had, at every position, both the
    lower and the upper comparison 1. -/
theorem range_of_all (x : IVec S150000 32) (lo hi : BitVec 32)
    (e : Host.reduce IntOp.andi
        (andi (cmpi .sge x (broadcastInDim S150000 ![] Facts.bcast_S_S150000 (constantI S_ 32 lo)))
          (cmpi .slt x (broadcastInDim S150000 ![] Facts.bcast_S_S150000 (constantI S_ 32 hi))))
        (constantI S_ 1 1#1) Facts.reducesTo_S150000_S_d0 Facts.h_S_ ix0 = 1#1) (p : S150000.Idx) :
    IntOp.cmpi .sge (x p) lo = 1#1 ∧ IntOp.cmpi .slt (x p) hi = 1#1 :=
  IntOp.andi_eq_one.1 (Host.reduce_andi_all _ _ _ _ ix0 e p)

/-- THE INDEX RANGES: where the precondition holds, every path id lies in `[-50000, 50000)` and every parent and
    neighbour index in `[-100000, 100000)`, as signed words. -/
theorem index_ranges (a0 : FVec F S100000x256 .f32) (a1 : FVec F S50000x256 .f32) (a2 : FVec F S256x256 .f32)
    (a3 : FVec F S256 .f32) (a4 : FVec F S256x256 .f32) (a5 : FVec F S256 .f32) (x6 x7 x8 : IVec S150000 32)
    (h : fn (F := F) a0 a1 a2 a3 a4 a5 x6 x7 x8 = fun _ => 1#1) :
    (∀ p : S150000.Idx, IntOp.cmpi .sge (x6 p) 4294917296#32 = 1#1 ∧ IntOp.cmpi .slt (x6 p) 50000#32 = 1#1)
    ∧ (∀ p : S150000.Idx, IntOp.cmpi .sge (x7 p) 4294867296#32 = 1#1 ∧ IntOp.cmpi .slt (x7 p) 100000#32 = 1#1)
    ∧ (∀ p : S150000.Idx, IntOp.cmpi .sge (x8 p) 4294867296#32 = 1#1 ∧ IntOp.cmpi .slt (x8 p) 100000#32 = 1#1) := by
  have e := congrFun h ix0
  dsimp only [fn, fn_part1, fn_part2] at e
  obtain ⟨e', h8⟩ := IntOp.andi_eq_one.1 e
  obtain ⟨e'', h7⟩ := IntOp.andi_eq_one.1 e'
  obtain ⟨-, h6⟩ := IntOp.andi_eq_one.1 e''
  exact ⟨range_of_all x6 _ _ h6, range_of_all x7 _ _ h7, range_of_all x8 _ _ h8⟩

end Cert.Pre_finite_inputs.Decode

end
-- ==== Proof.Bridge.lean ====
/-
  The two programs end at one function of their arguments.

  `common` is `PathEmbed.result` of the three plain gathers at the wrapped indices, the two weights read transposed and
  the two biases. The reference's last stage is `common` as it stands. The kernel's output array is `result` of its
  three bounds-checked lookups; under the precondition every index lies in `[-N, N)` for its table of `N` rows, so
  each lookup is the plain gather, and the kernel's array is `common` too.
-/
import proofs.«422794_j36455682409151_1_alg».proof.Defs
import proofs.«422794_j36455682409151_1_alg».proof.Proof.KernelWhole
import proofs.«422794_j36455682409151_1_alg».proof.Proof.ReferenceStages
import proofs.«422794_j36455682409151_1_alg».proof.Proof.PreDecode

noncomputable section

namespace Cert.Bridge

open Idealize.ShloMosaic Idealize.ShloMosaic.TcCoe Idealize.SL.Sem Idealize.ShloMosaic.ValueIdx Cert.PathEmbed
open Cert.KernelIdeal Cert.KernelIdeal.Gen

/-- The program's transpose of a weight is the weight read input feature first. -/
theorem transpose_eq (W : FVec Ideal S256x256 .f32) :
    transpose S256x256 [1, 0] W Facts₀.transposes_S256x256_S256x256_1_0 = transposed W := by
  funext j
  exact transpose_apply [1, 0] W _ j (ix2 (j 1) (j 0)) (fun b => by match b with | ⟨0, _⟩ => rfl | ⟨1, _⟩ => rfl)

/-- THE COMMON FUNCTION of the nine arguments: features `x0`, current embeddings `x1`, first weight and bias
    `x2`, `x3`, second weight and bias `x4`, `x5`, and the path, parent and neighbour indices `x6`, `x7`, `x8`. -/
def common (x0 : FVec Ideal S100000x256 .f32) (x1 : FVec Ideal S50000x256 .f32) (x2 : FVec Ideal S256x256 .f32)
    (x3 : FVec Ideal S256 .f32) (x4 : FVec Ideal S256x256 .f32) (x5 : FVec Ideal S256 .f32) (x6 x7 x8 : IVec S150000 32) :
    FVec Ideal S150000x256 .f32 :=
  result (R := 150000)
    (Host.gather gather_S50000x256_S150000x1_S150000x256_1_0_n_n_0_1_1256 x1 (Inputs.wrapped 50000#32 x6))
    (Host.gather gather_S100000x256_S150000x1_S150000x256_1_0_n_n_0_1_1256 x0 (Inputs.wrapped 100000#32 x7))
    (Host.gather gather_S100000x256_S150000x1_S150000x256_1_0_n_n_0_1_1256 x0 (Inputs.wrapped 100000#32 x8))
    (transposed x2) x3 (transposed x4) x5

/-- The reference's last stage is `common`: its gather stages are the plain gathers at the wrapped indices. -/
theorem reference_final (x0 : FVec Ideal S100000x256 .f32) (x1 : FVec Ideal S50000x256 .f32) (x2 : FVec Ideal S256x256 .f32)
    (x3 : FVec Ideal S256 .f32) (x4 : FVec Ideal S256x256 .f32) (x5 : FVec Ideal S256 .f32) (x6 x7 x8 : IVec S150000 32) :
    Cert.ReferenceIdeal.Read.val_main_v32 (F := Ideal) x0 x1 x2 x3 x4 x5 x6 x7 x8 = common x0 x1 x2 x3 x4 x5 x6 x7 x8 :=
  Cert.ReferenceIdeal.Stages.result_eq x0 x1 x2 x3 x4 x5 x6 x7 x8

/-- UNDER THE PRECONDITION the kernel's output array after the run is `common` of the arguments. -/
theorem kernel_final (m : (ℓ : Loc nD τ sig) → Buf (Elt Ideal) ℓ) (hpre : Cert.Pre_KernelIdeal m) (c : Dev nD) :
    (dats m 0 c).arrAt 7 cfg0.N = common (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  obtain ⟨h6, h7, h8⟩ := Cert.Pre_finite_inputs.Decode.index_ranges _ _ _ _ _ _ _ _ _ (hpre c)
  rw [Whole.final]
  unfold common
  show result (R := 150000) (V m c main_v0) (V m c main_v1) (V m c main_v2) (V m c main_v3) (V m c main_arg3)
    (V m c main_v4) (V m c main_arg5) = _
  rw [Inputs.window0, Inputs.window1, Inputs.window2, Inputs.window3, Inputs.window4, V_main_arg3, V_main_arg5,
    transpose_eq, transpose_eq,
    Inputs.lookup_eq_gather _ 4294917296#32 50000#32 50000#32 49999#32 50000 (by norm_num) (by norm_num) (by decide)
      (by decide) (by decide) (by decide) _ _ h6,
    Inputs.lookup_eq_gather _ 4294867296#32 100000#32 100000#32 99999#32 100000 (by norm_num) (by norm_num) (by decide)
      (by decide) (by decide) (by decide) _ _ h7,
    Inputs.lookup_eq_gather _ 4294867296#32 100000#32 100000#32 99999#32 100000 (by norm_num) (by norm_num) (by decide)
      (by decide) (by decide) (by decide) _ _ h8]

end Cert.Bridge

end
-- ==== Proof.lean ====
/-
  Path embeddings of a message-passing step: the tiled kernel against its array-level reference, over the extended reals.

  Both programs take node features, current embeddings, two `Linear(256 → 256)` layers and three integer index arrays
  (path id, parent index, neighbour index, 150000 each). Both look up three tables of rows by those indices and return

      relu (cur · W₂ᵀ + b₂) + relu ((child − parent) · W₁ᵀ + b₁),        150000 × 256.

  The kernel does the arithmetic on 50 tiles of 3000 rows, its matrix products taking 16-bit copies of their operands
  (at the extended reals a change of format is the identity, and a product into a zero accumulator is the plain sum).
  The two sides differ in the LOOKUP: the kernel's replaces a row whose index falls outside the table by a fixed fill
  word, the reference's clamps such an index into the table. Both first wrap a negative index (it counts from the
  end), so they agree exactly where every index lies in `[-N, N)` for a table of `N` rows — the range in which the
  reference's own indexing is defined —, and the precondition states that range for the three index inputs beside
  the finiteness of the float inputs (which no step below uses: every sum and product is the same term on both sides).

  The modules: `MaskedLookup` (words and masks: the wrapped index passes the range test), `PreDecode` (the index
  ranges out of the printed precondition), `KernelInputs` (what the region's windows hold; lookup = gather in range),
  `Spec` (the function), `Payload` (the body on a tile is the function on the tile's rows), `KernelWhole` (tiles
  to the whole array), `ReferenceStages` (the reference stage by stage), `Bridge` (both end at `common`).
  The three frames are the generated ones (the reference's its generated run with the result dropped); the ideal
  pass rewrote nothing, so `preserves` is `True`.
-/
import proofs.«422794_j36455682409151_1_alg».proof.Defs
import proofs.«422794_j36455682409151_1_alg».proof.Proof.Gen.Kernel
import proofs.«422794_j36455682409151_1_alg».proof.Proof.Gen.Kernel.Skeleton
import proofs.«422794_j36455682409151_1_alg».proof.Proof.Gen.Kernel.Launch
import proofs.«422794_j36455682409151_1_alg».proof.Proof.Gen.Kernel.Points
import proofs.«422794_j36455682409151_1_alg».proof.Proof.Gen.Kernel.Frame
import proofs.«422794_j36455682409151_1_alg».proof.Proof.Gen.KernelIdeal
import proofs.«422794_j36455682409151_1_alg».proof.Proof.Gen.KernelIdeal.Skeleton
import proofs.«422794_j36455682409151_1_alg».proof.Proof.Gen.KernelIdeal.Launch
import proofs.«422794_j36455682409151_1_alg».proof.Proof.Gen.KernelIdeal.Points
import proofs.«422794_j36455682409151_1_alg».proof.Proof.Gen.KernelIdeal.Frame
import proofs.«422794_j36455682409151_1_alg».proof.Proof.Gen.ReferenceIdeal
import proofs.«422794_j36455682409151_1_alg».proof.Proof.Gen.Pre_finite_inputs
import proofs.«422794_j36455682409151_1_alg».proof.Proof.Gen.KernelIdeal.Value
import proofs.«422794_j36455682409151_1_alg».proof.Proof.Gen.ReferenceIdeal.Run
import proofs.«422794_j36455682409151_1_alg».proof.Proof.Gen.ReferenceIdeal.Read
import proofs.«422794_j36455682409151_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments, under the precondition, both runs end with the result array
    at `Bridge.common` of the arguments: the kernel's by its run named array by array, the tiles assembled and the
    lookups opened in range (`Bridge.kernel_final`); the reference's by its run's composed term read stage by stage
    (`Bridge.reference_final`) at arguments rewritten to the kernel's. -/
theorem algebraic : Cert.algebraic_KernelIdeal_ReferenceIdeal := by
  intro m ρ m' ρ' hpre hagree
  refine ⟨fun c => Cert.Bridge.common
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.kernel_final m hpre c), (h c).2⟩)
      (Cert.KernelIdeal.Value.run_blocks (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v32_eq, Cert.Bridge.reference_final, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
